-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_arg4 : FVec F S1024x512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  main_v23

def fn {F : FTy → Type} [FloatOps F] (main_arg0 : FVec F S16384x512 .f32) (main_arg1 : FVec F S16384x512 .f32) (main_arg2 : FVec F S1024x512 .f32) (main_arg3 : FVec F S1024x512 .f32) (main_arg4 : FVec F S1024x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_v13 main_v16
-- ==== Kernel.lean ====
abbrev S16384x512 : Shape := ⟨2, ![16384, 512]⟩
abbrev S1024x512 : Shape := ⟨2, ![1024, 512]⟩
abbrev S512x512 : Shape := ⟨2, ![512, 512]⟩

abbrev nBuf : Space → Nat
  | .hbm => 12
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S1024x512_S512x512_0_0 : S1024x512.Slices ![0, 0] S512x512
  slices_S1024x512_S512x512_512_0 : S1024x512.Slices ![512, 0] S512x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  shapeCasts_S512x512_S512x512 : S512x512.ShapeCasts S512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S16384x512.size a
  hwx0_8 : ∀ i : grid0.Coords, EltTy.bits .f32 = 32 ∨ (Rect.block (s := S16384x512) S512x512.size (cc0_transform_8 i) (hinb0_8 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x512 : Shape := ⟨2, ![1024, 512]⟩
abbrev S16384x1024 : Shape := ⟨2, ![16384, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S16384x1024, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S_, .f32⟩
  | .hbm, ⟨10, _⟩ => ⟨S16384x512, .f32⟩
  | .hbm, ⟨11, _⟩ => ⟨S16384x512, .f32⟩
  | .hbm, ⟨12, _⟩ => ⟨S_, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S_, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x1024, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S_, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  bcast_S_S16384x512 : S_.BroadcastsInDim S16384x512 (![] : Fin 0 → Fin S16384x512.rank)
  dot_S16384x1024_S1024x512_S16384x512_1_0_0_1_n_n_wf : DotDims.WF S16384x1024 S1024x512 S16384x512 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.GruSpec.lean ====
/-
  One step of a gated recurrent cell, entry by entry, over the extended reals.

  With x the input rows, h the state rows and W a weight of 1024 rows whose upper 512 rows meet x and whose
  lower 512 rows meet h, a gate's pre-activation at row r and column j is
      sum over k < 512 of x[r,k] * W[k,j]  +  sum over k < 512 of h[r,k] * W[512+k,j].
  The update gate z and the reset gate r are the logistic function of that sum for Wz and Wr; the candidate is
  tanh of the same sum for Wh with the state row replaced by r[r,.] * h[r,.]; and the new state is
      z * h + (1 - z) * candidate.
  Also here: a sum over 1024 terms is the sum of its first 512 and its last 512 (the one law that joins a
  product with the joined row [x | h] to the two half products), and the quotient 1 / (1 + e^(-t)) is the
  logistic function.
-/
import Idealize.ShloMosaic.PureOps.Ideal
import Idealize.ShloMosaic.PureOps.IdealRules
import Idealize.ShloMosaic.Lib.ValueIdx

noncomputable section

namespace Cert.Gru

open Idealize.ShloMosaic Idealize.ShloMosaic.ValueIdx

/-- The activations' shape, a weight's, and a weight half's. -/
abbrev Act : Shape := ⟨2, ![16384, 512]⟩
abbrev Wt : Shape := ⟨2, ![1024, 512]⟩
abbrev Half : Shape := ⟨2, ![512, 512]⟩

/-- The value of the word both programs write for the constant one: it is the real number 1. -/
abbrev oneWord : EReal := Ideal.ofBits .f32 0x3F800000#32

theorem oneWord_eq : oneWord = 1 := IdealRules.sign_bit.ideal_onePat .f32

/-- Row k of a weight's upper half, and of its lower half, as rows of the whole weight. -/
abbrev upper (k : Fin 512) : Fin 1024 := ⟨k.val, by omega⟩
abbrev lower (k : Fin 512) : Fin 1024 := ⟨512 + k.val, by omega⟩

/-- A sum over 1024 terms is the sum over the first 512 plus the sum over the last 512: addition of extended
    reals is commutative and associative, so no term need be finite. -/
theorem sum_halves (f : Fin 1024 → EReal) :
    ∑ k : Fin 1024, f k = ∑ k : Fin 512, f (upper k) + ∑ k : Fin 512, f (lower k) :=
  Fin.sum_univ_add (a := 512) (b := 512) f

/-- A gate's pre-activation: an input row against a column of the upper half plus a state row against the same
    column of the lower half. -/
def gate (a b u v : Fin 512 → EReal) : EReal := ∑ k : Fin 512, a k * u k + ∑ k : Fin 512, b k * v k

/-- One entry of the new state, from the input row `xr`, the state row `hr`, the entry's column of the two halves
    of the update weight (`zu`, `zl`) and of the candidate weight (`cu`, `cl`), both halves of the reset weight
    whole (`ru`, `rl`: every column is needed, the reset gate being taken along the whole row), and the old state's
    entry `hj`. -/
def entry (xr hr zu zl : Fin 512 → EReal) (ru rl : Fin 512 → Fin 512 → EReal) (cu cl : Fin 512 → EReal) (hj : EReal) : EReal :=
  Ideal.logistic (gate xr hr zu zl) * hj
    + (oneWord - Ideal.logistic (gate xr hr zu zl))
      * Ideal.tanh (gate xr (fun k => Ideal.logistic (gate xr hr (fun l => ru l k) (fun l => rl l k)) * hr k) cu cl)

/-- The new state's entry at row r and column j, from the six weight halves. -/
def cellAt (x h : Act.Idx → EReal) (zu zl ru rl cu cl : Half.Idx → EReal) (r : Fin 16384) (j : Fin 512) : EReal :=
  entry (fun k => x (ix2 r k)) (fun k => h (ix2 r k))
    (fun k => zu (ix2 k j)) (fun k => zl (ix2 k j))
    (fun l k => ru (ix2 l k)) (fun l k => rl (ix2 l k))
    (fun k => cu (ix2 k j)) (fun k => cl (ix2 k j))
    (h (ix2 r j))

/-- The new state as an array, from the six weight halves. -/
def cellOfHalves (x h : Act.Idx → EReal) (zu zl ru rl cu cl : Half.Idx → EReal) : Act.Idx → EReal := fun i =>
  cellAt x h zu zl ru rl cu cl (i 0) (i 1)

theorem cellOfHalves_apply (x h : Act.Idx → EReal) (zu zl ru rl cu cl : Half.Idx → EReal) (r : Fin 16384) (j : Fin 512) :
    cellOfHalves x h zu zl ru rl cu cl (ix2 r j) = cellAt x h zu zl ru rl cu cl r j := rfl

/-- The two halves of a weight. -/
def upperHalf (W : Wt.Idx → EReal) : Half.Idx → EReal := fun i => W (ix2 (upper (i 0)) (i 1))
def lowerHalf (W : Wt.Idx → EReal) : Half.Idx → EReal := fun i => W (ix2 (lower (i 0)) (i 1))

/-- A half's entry is the whole weight's entry in the matching row. -/
theorem upperHalf_apply (W : Wt.Idx → EReal) (k j : Fin 512) : upperHalf W (ix2 k j) = W (ix2 (upper k) j) := rfl
theorem lowerHalf_apply (W : Wt.Idx → EReal) (k j : Fin 512) : lowerHalf W (ix2 k j) = W (ix2 (lower k) j) := rfl

/-- The new state as an array, from the three whole weights. -/
def cell (x h : Act.Idx → EReal) (Wz Wr Wh : Wt.Idx → EReal) : Act.Idx → EReal :=
  cellOfHalves x h (upperHalf Wz) (lowerHalf Wz) (upperHalf Wr) (lowerHalf Wr) (upperHalf Wh) (lowerHalf Wh)

/-- The quotient 1 / (1 + e^(-t)), with the constant written as its word, is the logistic function at every
    extended real t (at the infinities by the conventions of division and of the exponential). -/
theorem quotient_eq_logistic (t : EReal) : Ideal.div oneWord (oneWord + Ideal.exp (-t)) = Ideal.logistic t := by
  rw [oneWord_eq]; rfl

end Cert.Gru

end
-- ==== Proof.RefCell.lean ====
/-
  The reference computes the cell of GruSpec.

  The reference joins the rows of x and h into rows of length 1024 and multiplies by a whole weight. Read at
  row r and column j that product is a sum over 1024 positions of the joined row times the weight's column;
  its first 512 positions hold x[r,.] against the weight's upper half and its last 512 hold h[r,.] against the
  lower half, so the sum is the gate's pre-activation. The reference spells the logistic function as the
  quotient 1 / (1 + e^(-t)). The rest is the same operations in the same order as the cell's definition.
-/
import proofs.«140786_j70523363000807_1_alg».proof.Proof.Gen.ReferenceIdeal.Read
import proofs.«140786_j70523363000807_1_alg».proof.Proof.GruSpec

noncomputable section

namespace Cert.Gru.Ref

open Idealize.ShloMosaic Idealize.ShloMosaic.ValueIdx
open Cert.ReferenceIdeal Cert.ReferenceIdeal.Gen Cert.ReferenceIdeal.Read Cert.Gru

/-- The joined row [a | b] read at a position of its first half is a's entry. -/
theorem joined_upper (a b : S16384x512.Idx → EReal) (r : Fin 16384) (j k : Fin 512) :
    concatenate S16384x1024 1 [⟨S16384x512, a⟩, ⟨S16384x512, b⟩] concatenates_S16384x512_S16384x512_S16384x1024_d1
      (lidx_main_v1 (ix2 r j) (upper k)) = a (ix2 r k) :=
  concatenate_pair_apply_left (t := S16384x1024) (s₁ := S16384x512) (s₂ := S16384x512) (1 : Fin 2) a b
    concatenates_S16384x512_S16384x512_S16384x1024_d1 (lidx_main_v1 (ix2 r j) (upper k)) rfl (ix2 r k)
    (fun d => by match d with | ⟨0, _⟩ => rfl | ⟨1, _⟩ => rfl)

/-- The joined row [a | b] read at a position of its second half is b's entry, 512 positions back. -/
theorem joined_lower (a b : S16384x512.Idx → EReal) (r : Fin 16384) (j k : Fin 512) :
    concatenate S16384x1024 1 [⟨S16384x512, a⟩, ⟨S16384x512, b⟩] concatenates_S16384x512_S16384x512_S16384x1024_d1
      (lidx_main_v1 (ix2 r j) (lower k)) = b (ix2 r k) :=
  concatenate_pair_apply_right (t := S16384x1024) (s₁ := S16384x512) (s₂ := S16384x512) (1 : Fin 2) a b
    concatenates_S16384x512_S16384x512_S16384x1024_d1 (lidx_main_v1 (ix2 r j) (lower k)) rfl rfl (ix2 r k)
    (fun d hd => by match d with | ⟨0, _⟩ => rfl | ⟨1, _⟩ => exact absurd rfl hd)
    (Nat.add_comm k.val 512)

/-- A weight's row index in the product, at a position of either half. -/
theorem wrow_upper (r : Fin 16384) (j k : Fin 512) : ridx_main_v1 (ix2 r j) (upper k) = ix2 (upper k) j :=
  funext fun d => by match d with | ⟨0, _⟩ => rfl | ⟨1, _⟩ => rfl
theorem wrow_lower (r : Fin 16384) (j k : Fin 512) : ridx_main_v1 (ix2 r j) (lower k) = ix2 (lower k) j :=
  funext fun d => by match d with | ⟨0, _⟩ => rfl | ⟨1, _⟩ => rfl

/-- The product of the joined rows [a | b] with a whole weight, at entry (r, j), is the gate's pre-activation: the
    1024-term sum splits into its halves, the first reading a against the upper half, the second b against the
    lower half. -/
theorem joined_dot (a b : S16384x512.Idx → EReal) (W : S1024x512.Idx → EReal) (r : Fin 16384) (j : Fin 512) :
    ∑ k : Fin 1024, (concatenate S16384x1024 1 [⟨S16384x512, a⟩, ⟨S16384x512, b⟩] concatenates_S16384x512_S16384x512_S16384x1024_d1)
        (lidx_main_v1 (ix2 r j) k) * W (ridx_main_v1 (ix2 r j) k)
      = gate (fun k => a (ix2 r k)) (fun k => b (ix2 r k))
          (fun k => upperHalf W (ix2 k j)) (fun k => lowerHalf W (ix2 k j)) := by
  rw [sum_halves]
  unfold gate
  congr 1
  · exact Finset.sum_congr rfl fun k _ => by rw [joined_upper, wrow_upper]; rfl
  · exact Finset.sum_congr rfl fun k _ => by rw [joined_lower, wrow_lower]; rfl

/-- The reference's update gate is the logistic function of its pre-activation. -/
theorem update_gate (x0 x1 : (⟨S16384x512, .f32⟩ : BufTy).Contents (Elt Ideal)) (x2 : (⟨S1024x512, .f32⟩ : BufTy).Contents (Elt Ideal)) (r : Fin 16384) (j : Fin 512) :
    val_main_v7 (F := Ideal) x0 x1 x2 (ix2 r j)
      = Ideal.logistic (gate (fun k => x0 (ix2 r k)) (fun k => x1 (ix2 r k))
          (fun k => upperHalf x2 (ix2 k j)) (fun k => lowerHalf x2 (ix2 k j))) := by
  rw [val_main_v7_apply, val_main_v6_apply, val_main_cst_0_apply, val_main_v5_apply, val_main_v4_apply, val_main_cst_apply,
    val_main_v3_apply, val_main_v2_apply, val_main_v1_apply]
  unfold val_main_v0
  rw [joined_dot]
  exact quotient_eq_logistic _

/-- The reference's reset gate likewise. -/
theorem reset_gate (x0 x1 : (⟨S16384x512, .f32⟩ : BufTy).Contents (Elt Ideal)) (x3 : (⟨S1024x512, .f32⟩ : BufTy).Contents (Elt Ideal)) (r : Fin 16384) (j : Fin 512) :
    val_main_v14 (F := Ideal) x0 x1 x3 (ix2 r j)
      = Ideal.logistic (gate (fun k => x0 (ix2 r k)) (fun k => x1 (ix2 r k))
          (fun k => upperHalf x3 (ix2 k j)) (fun k => lowerHalf x3 (ix2 k j))) := by
  rw [val_main_v14_apply, val_main_v13_apply, val_main_cst_2_apply, val_main_v12_apply, val_main_v11_apply, val_main_cst_1_apply,
    val_main_v10_apply, val_main_v9_apply, val_main_v8_apply]
  unfold val_main_v0
  rw [joined_dot]
  exact quotient_eq_logistic _

/-- The reference's candidate: tanh of the pre-activation whose state row is the reset gate times the state. -/
theorem candidate (x0 x1 : (⟨S16384x512, .f32⟩ : BufTy).Contents (Elt Ideal)) (x3 x4 : (⟨S1024x512, .f32⟩ : BufTy).Contents (Elt Ideal)) (r : Fin 16384) (j : Fin 512) :
    val_main_v18 (F := Ideal) x0 x1 x3 x4 (ix2 r j)
      = Ideal.tanh (gate (fun k => x0 (ix2 r k))
          (fun k => Ideal.logistic (gate (fun l => x0 (ix2 r l)) (fun l => x1 (ix2 r l))
              (fun l => upperHalf x3 (ix2 l k)) (fun l => lowerHalf x3 (ix2 l k))) * x1 (ix2 r k))
          (fun k => upperHalf x4 (ix2 k j)) (fun k => lowerHalf x4 (ix2 k j))) := by
  rw [val_main_v18_apply, val_main_v17_apply]
  unfold val_main_v16
  rw [joined_dot]
  simp only [val_main_v15_apply, reset_gate]
  rfl

/-- THE REFERENCE IS THE CELL: its result, as a function of the five arguments, is `cell`. -/
theorem result_eq (x0 x1 : (⟨S16384x512, .f32⟩ : BufTy).Contents (Elt Ideal)) (x2 x3 x4 : (⟨S1024x512, .f32⟩ : BufTy).Contents (Elt Ideal)) :
    val_main_v23 (F := Ideal) x0 x1 x2 x3 x4 = cell x0 x1 x2 x3 x4 := by
  funext i
  obtain ⟨r, j, rfl⟩ : ∃ (r : Fin 16384) (j : Fin 512), i = ix2 r j := ⟨i 0, i 1, eq_ix2 i⟩
  rw [val_main_v23_apply, val_main_v19_apply, val_main_v22_apply, val_main_v21_apply, val_main_v20_apply, val_main_cst_3_apply,
    update_gate, candidate]
  rfl

end Cert.Gru.Ref

end
-- ==== Proof.KernelBlock.lean ====
/-
  What the kernel body stores, entry by entry, as a function of the eight blocks it loads.

  The body loads a block of 512 rows of x and of h and the six weight halves whole. A product of two
  512 x 512 blocks into a zero accumulator is, at an entry, the sum over the 512 positions of the row times the
  column; a change of float format is the identity over the extended reals, and a cast of a block to its own
  shape changes nothing. So the sum of two such products is a gate's pre-activation, and the stored value at
  entry (p, q) is the cell's entry from row p of the two activation blocks, column q of the update and candidate
  halves, and the reset halves whole.
-/
import proofs.«140786_j70523363000807_1_alg».proof.Proof.Gen.KernelIdeal.Skeleton
import proofs.«140786_j70523363000807_1_alg».proof.Proof.GruSpec
import Idealize.ShloMosaic.Lib.Pipeline.Value
import Idealize.ShloMosaic.Lib.ValueIdx
import Idealize.ShloMosaic.PureOps.Ideal.Laws

noncomputable section

namespace Cert.Gru.Kernel

open Idealize.ShloMosaic Idealize.ShloMosaic.ValueIdx
open Cert.KernelIdeal Cert.KernelIdeal.Gen Cert.Gru

/-! ## One block product at an entry -/

theorem lhs_axis0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_axis1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_axis0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_axis1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product of two blocks into the zero accumulator, at entry (p, q): row p of the left against column q of
    the right. -/
theorem blockdot_apply (a b : FVec Ideal S512x512 .bf16) (p q : Fin 512) :
    matmul dot_S512x512_S512x512_S512x512_1_0_0_1_n_n none a b (constant S512x512 .f32 0x00000000#32) (ix2 p q)
      = ∑ k : Fin 512, a (ix2 p k) * b (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun d => Fin.ext (by
    match d with
    | ⟨0, _⟩ => exact lhs_axis0 _ _
    | ⟨1, _⟩ => exact (lhs_axis1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun d => Fin.ext (by
    match d with
    | ⟨0, _⟩ => exact (rhs_axis0 _ _).trans hk
    | ⟨1, _⟩ => exact rhs_axis1 _ _)
  rw [el, er]

/-- The same with the operands as the body prepares them: the left block narrowed, the right block cast to its own
    shape and narrowed. Both preparations are the identity on values. -/
theorem prepared_dot_apply (a w : FVec Ideal S512x512 .f32) (hb : FTy.bits .bf16 < FTy.bits .f32) (hc : S512x512.ShapeCasts S512x512)
    (p q : Fin 512) :
    matmul (F := Ideal) dot_S512x512_S512x512_S512x512_1_0_0_1_n_n none (truncf (F := Ideal) .bf16 a hb) (truncf (F := Ideal) .bf16 (shapeCast S512x512 w hc) hb)
        (constant S512x512 .f32 0x00000000#32) (ix2 p q)
      = ∑ k : Fin 512, a (ix2 p k) * w (ix2 k q) := by
  rw [shapeCast_self]
  exact blockdot_apply _ _ p q

/-! ## A pre-activation block -/

/-- The sum of the two prepared products: activations `a` against `u`, activations `b` against `v`. -/
def preact (a b u v : Vec Ideal S512x512 .f32) : FVec Ideal S512x512 .f32 :=
  addf (F := Ideal) (matmul (F := Ideal) dot_S512x512_S512x512_S512x512_1_0_0_1_n_n none (truncf (F := Ideal) .bf16 a bitsLt_bf16_f32) (truncf (F := Ideal) .bf16 (shapeCast S512x512 u shapeCasts_S512x512_S512x512) bitsLt_bf16_f32) (constant S512x512 .f32 0x00000000#32))
    (matmul (F := Ideal) dot_S512x512_S512x512_S512x512_1_0_0_1_n_n none (truncf (F := Ideal) .bf16 b bitsLt_bf16_f32) (truncf (F := Ideal) .bf16 (shapeCast S512x512 v shapeCasts_S512x512_S512x512) bitsLt_bf16_f32) (constant S512x512 .f32 0x00000000#32))

/-- At an entry it is the gate's pre-activation of the two rows and the two columns. -/
theorem preact_apply (a b u v : Vec Ideal S512x512 .f32) (p q : Fin 512) :
    preact a b u v (ix2 p q)
      = gate (fun k => a (ix2 p k)) (fun k => b (ix2 p k)) (fun k => u (ix2 k q)) (fun k => v (ix2 k q)) :=
  congrArg₂ (· + ·) (prepared_dot_apply a u _ _ p q) (prepared_dot_apply b v _ _ p q)

/-! ## The three payloads -/

/-- The update gate's block. -/
theorem update_eq (x0 x1 w2 w3 : Vec Ideal S512x512 .f32) : k0_pay4 (F := Ideal) x0 x1 w2 w3 = logistic (F := Ideal) (preact x0 x1 w2 w3) := rfl

/-- The candidate's block: the state block enters its second product multiplied by the reset gate's block. -/
theorem candidate_eq (x0 x1 w4 w5 w6 w7 : Vec Ideal S512x512 .f32) :
    k0_pay5 (F := Ideal) x0 x1 w4 w5 w6 w7 = tanh (F := Ideal) (preact x0 (mulf (F := Ideal) (logistic (F := Ideal) (preact x0 x1 w4 w5)) x1) w6 w7) := rfl

/-- THE STORED BLOCK at entry (p, q) is the cell's entry of the loaded blocks. -/
theorem stored_apply (x0 x1 w2 w3 w4 w5 w6 w7 : Vec Ideal S512x512 .f32) (p q : Fin 512) :
    k0_pay1 (F := Ideal) (k0_pay4 x0 x1 w2 w3) (k0_pay5 x0 x1 w4 w5 w6 w7) (k0_pay6 x0 x1 w2 w3) (ix2 p q)
      = entry (fun k => x0 (ix2 p k)) (fun k => x1 (ix2 p k)) (fun k => w2 (ix2 k q)) (fun k => w3 (ix2 k q))
          (fun l k => w4 (ix2 l k)) (fun l k => w5 (ix2 l k)) (fun k => w6 (ix2 k q)) (fun k => w7 (ix2 k q))
          (x1 (ix2 p q)) := by
  have hz : k0_pay4 (F := Ideal) x0 x1 w2 w3 (ix2 p q)
      = Ideal.logistic (gate (fun k => x0 (ix2 p k)) (fun k => x1 (ix2 p k)) (fun k => w2 (ix2 k q)) (fun k => w3 (ix2 k q))) := by
    rw [update_eq]; exact congrArg Ideal.logistic (preact_apply x0 x1 w2 w3 p q)
  have hr : ∀ k : Fin 512, (mulf (F := Ideal) (logistic (F := Ideal) (preact x0 x1 w4 w5)) x1 : FVec Ideal S512x512 .f32) (ix2 p k)
      = Ideal.logistic (gate (fun l => x0 (ix2 p l)) (fun l => x1 (ix2 p l)) (fun l => w4 (ix2 l k)) (fun l => w5 (ix2 l k))) * x1 (ix2 p k) :=
    fun k => congrArg (· * x1 (ix2 p k)) (congrArg Ideal.logistic (preact_apply x0 x1 w4 w5 p k))
  have hc : k0_pay5 (F := Ideal) x0 x1 w4 w5 w6 w7 (ix2 p q)
      = Ideal.tanh (gate (fun k => x0 (ix2 p k))
          (fun k => Ideal.logistic (gate (fun l => x0 (ix2 p l)) (fun l => x1 (ix2 p l)) (fun l => w4 (ix2 l k)) (fun l => w5 (ix2 l k))) * x1 (ix2 p k))
          (fun k => w6 (ix2 k q)) (fun k => w7 (ix2 k q))) := by
    rw [candidate_eq]
    refine congrArg Ideal.tanh ((preact_apply x0 _ w6 w7 p q).trans ?_)
    exact congrArg (fun f => gate (fun k => x0 (ix2 p k)) f (fun k => w6 (ix2 k q)) (fun k => w7 (ix2 k q))) (funext hr)
  show k0_pay4 (F := Ideal) x0 x1 w2 w3 (ix2 p q) * x1 (ix2 p q)
      + (oneWord - k0_pay4 (F := Ideal) x0 x1 w2 w3 (ix2 p q)) * k0_pay5 (F := Ideal) x0 x1 w4 w5 w6 w7 (ix2 p q) = _
  rw [hz, hc]
  rfl

end Cert.Gru.Kernel

end
-- ==== Proof.KernelArray.lean ====
/-
  The kernel's result array is the cell of GruSpec.

  The grid has 32 points. At point t the body sees rows 512 t .. 512 t + 511 of x and of h and the six weight
  halves whole, and writes rows 512 t .. 512 t + 511 of the result. So what point t writes back is block t of ONE
  whole-array function, the cell from the six halves; the 32 row blocks cover the result; hence the result array
  is that function. The six halves are the host's slices of the three weights before the call: rows 0 .. 511
  and rows 512 .. 1023.
-/
import proofs.«140786_j70523363000807_1_alg».proof.Proof.Gen.KernelIdeal.Value
import proofs.«140786_j70523363000807_1_alg».proof.Proof.KernelBlock
import Idealize.ShloMosaic.Lib.Pipeline.Value
import Idealize.ShloMosaic.Lib.StableHlo.Run

noncomputable section

namespace Cert.Gru.Kernel

open Idealize.ShloMosaic Idealize.ShloMosaic.TcCoe Idealize.ShloMosaic.ValueIdx Idealize.SL.Sem
open Idealize.ShloMosaic.Pipeline (Dat)
open Cert.KernelIdeal Cert.KernelIdeal.Gen Cert.Gru

variable (m : (ℓ : Loc nD τ sig) → Buf (Elt Ideal) ℓ) (ρ : Dev nD → PrngReg)

/-! ## The blocks the body sees at a point, at their literal type -/

abbrev blkX (c : Dev nD) (t : Fin cfg0.N) : Vec Ideal S512x512 .f32 := iblk m c 0 t
abbrev blkH (c : Dev nD) (t : Fin cfg0.N) : Vec Ideal S512x512 .f32 := iblk m c 1 t
abbrev blkZu (c : Dev nD) (t : Fin cfg0.N) : Vec Ideal S512x512 .f32 := iblk m c 2 t
abbrev blkZl (c : Dev nD) (t : Fin cfg0.N) : Vec Ideal S512x512 .f32 := iblk m c 3 t
abbrev blkRu (c : Dev nD) (t : Fin cfg0.N) : Vec Ideal S512x512 .f32 := iblk m c 4 t
abbrev blkRl (c : Dev nD) (t : Fin cfg0.N) : Vec Ideal S512x512 .f32 := iblk m c 5 t
abbrev blkCu (c : Dev nD) (t : Fin cfg0.N) : Vec Ideal S512x512 .f32 := iblk m c 6 t
abbrev blkCl (c : Dev nD) (t : Fin cfg0.N) : Vec Ideal S512x512 .f32 := iblk m c 7 t

/-- The arrays those blocks are cut from, as the call finds them. -/
abbrev arrX (c : Dev nD) : S16384x512.Idx → EReal := V m c main_arg0
abbrev arrH (c : Dev nD) : S16384x512.Idx → EReal := V m c main_arg1
abbrev arrZu (c : Dev nD) : S512x512.Idx → EReal := V m c main_v0
abbrev arrZl (c : Dev nD) : S512x512.Idx → EReal := V m c main_v1
abbrev arrRu (c : Dev nD) : S512x512.Idx → EReal := V m c main_v2
abbrev arrRl (c : Dev nD) : S512x512.Idx → EReal := V m c main_v3
abbrev arrCu (c : Dev nD) : S512x512.Idx → EReal := V m c main_v4
abbrev arrCl (c : Dev nD) : S512x512.Idx → EReal := V m c main_v5

theorem zero_offsets : (![0, 0] : Fin 2 → Nat) = fun _ => 0 := funext fun a => by fin_cases a <;> rfl

/-! ## The index maps, decided over the 32 points -/

/-- The two activation windows move with the result's window down the rows; every weight window stays at the
    origin; no window moves along the columns. -/
theorem index_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) ≤ 31 ∧ win0_8.index t (1 : Fin 2) = 0 :=
  (by decide +kernel : ∀ t : Fin grid0.N, _)

/-- Every one of the 32 row blocks is some point's. -/
theorem index_onto : ∀ b : Fin 32, ∃ t : Fin cfg0.N, win0_8.index t = ![b.val, 0] :=
  (by decide +kernel : ∀ b : Fin 32, ∃ t : Fin grid0.N, win0_8.index t = ![b.val, 0])

/-! ## What a point writes back -/

/-- WHAT POINT `t` WRITES BACK is block `t` of the cell computed from the arrays the call finds. -/
theorem flushed_eq (c : Dev nD) (t : Fin cfg0.N) :
    (dats m 0 c).flushed 8 t = ((cfg0.win 8).blk t).view.read (Elt Ideal)
      (cellOfHalves (arrX m c) (arrH m c) (arrZu m c) (arrZl m c) (arrRu m c) (arrRl m c) (arrCu m c) (arrCl m c)) := by
  rw [Cert.KernelIdeal.Value.flushed8]
  unfold out0_8
  rw [View.canon_unit_zero zero_offsets]
  simp only [View.ld_unit_zero (S := S512x512) zero_offsets]
  obtain ⟨e0, e0', e1, e1', e2, e2', e3, e3', e4, e4', e5, e5', e6, e6', e7, e7', e8, e8'⟩ := index_facts t
  funext y
  obtain ⟨p, q, rfl⟩ : ∃ (p q : Fin 512), y = ix2 p q := ⟨y 0, y 1, eq_ix2 y⟩
  obtain ⟨R, J, hRJ⟩ : ∃ (R : Fin 16384) (J : Fin 512), ((cfg0.win 8).blk t).view.emb (ix2 p q) = ix2 R J := ⟨_, _, eq_ix2 _⟩
  have hR : R.val = win0_8.index t (0 : Fin 2) * 512 + 1 * p.val := (congrArg Fin.val (congrFun hRJ 0)).symm
  have hJ : J.val = win0_8.index t (1 : Fin 2) * 512 + 1 * q.val := (congrArg Fin.val (congrFun hRJ 1)).symm
  show k0_pay1 (F := Ideal) (k0_pay4 (blkX m c t) (blkH m c t) (blkZu m c t) (blkZl m c t))
      (k0_pay5 (blkX m c t) (blkH m c t) (blkRu m c t) (blkRl m c t) (blkCu m c t) (blkCl m c t))
      (k0_pay6 (blkX m c t) (blkH m c t) (blkZu m c t) (blkZl m c t)) (ix2 p q)
    = cellOfHalves (arrX m c) (arrH m c) (arrZu m c) (arrZl m c) (arrRu m c) (arrRl m c) (arrCu m c) (arrCl m c)
        (((cfg0.win 8).blk t).view.emb (ix2 p q))
  rw [hRJ, cellOfHalves_apply]
  refine (stored_apply (blkX m c t) (blkH m c t) (blkZu m c t) (blkZl m c t) (blkRu m c t) (blkRl m c t) (blkCu m c t) (blkCl m c t) p q).trans ?_
  unfold cellAt
  -- each block entry is the array's entry: a block's coordinate is index * size + the coordinate inside the block
  have rX : ∀ k : Fin 512, blkX m c t (ix2 p k) = arrX m c (ix2 R k) := fun k => by
    show V m c main_arg0 (((cfg0.win 0).blk t).view.emb (ix2 p k)) = V m c main_arg0 (ix2 R k)
    refine congrArg _ (funext fun a => Fin.ext ?_)
    match a with
    | ⟨0, _⟩ => show win0_0.index t (0 : Fin 2) * 512 + 1 * p.val = R.val; omega
    | ⟨1, _⟩ => show win0_0.index t (1 : Fin 2) * 512 + 1 * k.val = k.val; omega
  have rH : ∀ k : Fin 512, blkH m c t (ix2 p k) = arrH m c (ix2 R k) := fun k => by
    show V m c main_arg1 (((cfg0.win 1).blk t).view.emb (ix2 p k)) = V m c main_arg1 (ix2 R k)
    refine congrArg _ (funext fun a => Fin.ext ?_)
    match a with
    | ⟨0, _⟩ => show win0_1.index t (0 : Fin 2) * 512 + 1 * p.val = R.val; omega
    | ⟨1, _⟩ => show win0_1.index t (1 : Fin 2) * 512 + 1 * k.val = k.val; omega
  have rHq : blkH m c t (ix2 p q) = arrH m c (ix2 R J) := by
    show V m c main_arg1 (((cfg0.win 1).blk t).view.emb (ix2 p q)) = V m c main_arg1 (ix2 R J)
    refine congrArg _ (funext fun a => Fin.ext ?_)
    match a with
    | ⟨0, _⟩ => show win0_1.index t (0 : Fin 2) * 512 + 1 * p.val = R.val; omega
    | ⟨1, _⟩ => show win0_1.index t (1 : Fin 2) * 512 + 1 * q.val = J.val; omega
  have rZu : ∀ k : Fin 512, blkZu m c t (ix2 k q) = arrZu m c (ix2 k J) := fun k => by
    show V m c main_v0 (((cfg0.win 2).blk t).view.emb (ix2 k q)) = V m c main_v0 (ix2 k J)
    refine congrArg _ (funext fun a => Fin.ext ?_)
    match a with
    | ⟨0, _⟩ => show win0_2.index t (0 : Fin 2) * 512 + 1 * k.val = k.val; omega
    | ⟨1, _⟩ => show win0_2.index t (1 : Fin 2) * 512 + 1 * q.val = J.val; omega
  have rZl : ∀ k : Fin 512, blkZl m c t (ix2 k q) = arrZl m c (ix2 k J) := fun k => by
    show V m c main_v1 (((cfg0.win 3).blk t).view.emb (ix2 k q)) = V m c main_v1 (ix2 k J)
    refine congrArg _ (funext fun a => Fin.ext ?_)
    match a with
    | ⟨0, _⟩ => show win0_3.index t (0 : Fin 2) * 512 + 1 * k.val = k.val; omega
    | ⟨1, _⟩ => show win0_3.index t (1 : Fin 2) * 512 + 1 * q.val = J.val; omega
  have rRu : ∀ l k : Fin 512, blkRu m c t (ix2 l k) = arrRu m c (ix2 l k) := fun l k => by
    show V m c main_v2 (((cfg0.win 4).blk t).view.emb (ix2 l k)) = V m c main_v2 (ix2 l k)
    refine congrArg _ (funext fun a => Fin.ext ?_)
    match a with
    | ⟨0, _⟩ => show win0_4.index t (0 : Fin 2) * 512 + 1 * l.val = l.val; omega
    | ⟨1, _⟩ => show win0_4.index t (1 : Fin 2) * 512 + 1 * k.val = k.val; omega
  have rRl : ∀ l k : Fin 512, blkRl m c t (ix2 l k) = arrRl m c (ix2 l k) := fun l k => by
    show V m c main_v3 (((cfg0.win 5).blk t).view.emb (ix2 l k)) = V m c main_v3 (ix2 l k)
    refine congrArg _ (funext fun a => Fin.ext ?_)
    match a with
    | ⟨0, _⟩ => show win0_5.index t (0 : Fin 2) * 512 + 1 * l.val = l.val; omega
    | ⟨1, _⟩ => show win0_5.index t (1 : Fin 2) * 512 + 1 * k.val = k.val; omega
  have rCu : ∀ k : Fin 512, blkCu m c t (ix2 k q) = arrCu m c (ix2 k J) := fun k => by
    show V m c main_v4 (((cfg0.win 6).blk t).view.emb (ix2 k q)) = V m c main_v4 (ix2 k J)
    refine congrArg _ (funext fun a => Fin.ext ?_)
    match a with
    | ⟨0, _⟩ => show win0_6.index t (0 : Fin 2) * 512 + 1 * k.val = k.val; omega
    | ⟨1, _⟩ => show win0_6.index t (1 : Fin 2) * 512 + 1 * q.val = J.val; omega
  have rCl : ∀ k : Fin 512, blkCl m c t (ix2 k q) = arrCl m c (ix2 k J) := fun k => by
    show V m c main_v5 (((cfg0.win 7).blk t).view.emb (ix2 k q)) = V m c main_v5 (ix2 k J)
    refine congrArg _ (funext fun a => Fin.ext ?_)
    match a with
    | ⟨0, _⟩ => show win0_7.index t (0 : Fin 2) * 512 + 1 * k.val = k.val; omega
    | ⟨1, _⟩ => show win0_7.index t (1 : Fin 2) * 512 + 1 * q.val = J.val; omega
  rw [funext rX, funext rH, funext rZu, funext rZl, funext (fun l => funext (rRu l)), funext (fun l => funext (rRl l)),
    funext rCu, funext rCl, rHq]

/-! ## The blocks cover the result -/

/-- An index of the result is in point `t`'s block iff each coordinate is in the block's range on its axis. -/
theorem mem_block (t : Fin cfg0.N) (i : S16384x512.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v6).slice (win0_8.rect t)).set ↔ _
  rw [View.set_slice_whole, Rect.mem_set_unit]
  exact Iff.rfl

/-- Row r lies in the block of the point whose row-block index is r / 512. -/
theorem covered (i : S16384x512.Idx) :
    ∃ t : Fin cfg0.N, (cfg0.win 8).flush t = true ∧ i ∈ ((cfg0.win 8).blk t).view.set := by
  have hi0 : (i 0).val < 16384 := (i 0).isLt
  have hi1 : (i 1).val < 512 := (i 1).isLt
  obtain ⟨t, ht⟩ := index_onto ⟨(i 0).val / 512, by omega⟩
  have q0 : win0_8.index t (0 : Fin 2) = (i 0).val / 512 := congrFun ht 0
  have q1 : win0_8.index t (1 : Fin 2) = 0 := congrFun ht 1
  refine ⟨t, flush0_8 t, ?_⟩
  rw [mem_block]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 512 ≤ (i 1).val ∧ (i 1).val < win0_8.index t (1 : Fin 2) * 512 + 512; omega

/-- THE RESULT ARRAY after the run is the cell computed from the arrays the call finds. -/
theorem result_of_halves (c : Dev nD) :
    (dats m 0 c).arrAt 8 cfg0.N
      = cellOfHalves (arrX m c) (arrH m c) (arrZu m c) (arrZl m c) (arrRu m c) (arrRl m c) (arrCu m c) (arrCl m c) :=
  (dats m 0 c).arrAt_eq_of_cover 8 _ (fun t _ => flushed_eq m c t) covered

/-! ## The halves are the host's slices of the weights -/

/-- The slice of rows 0 .. 511 of a weight is its upper half; of rows 512 .. 1023, its lower half. -/
theorem slice_upper (W : S1024x512.Idx → EReal) (h : S1024x512.Slices ![0, 0] S512x512) :
    extractStridedSlice S512x512 ![0, 0] W h = upperHalf W := by
  funext y
  obtain ⟨k, j, rfl⟩ : ∃ (k j : Fin 512), y = ix2 k j := ⟨y 0, y 1, eq_ix2 y⟩
  exact extractStridedSlice_apply ![0, 0] W h (ix2 k j) (ix2 (upper k) j)
    (fun a => by match a with | ⟨0, _⟩ => exact (Nat.zero_add _).symm | ⟨1, _⟩ => exact (Nat.zero_add _).symm)
theorem slice_lower (W : S1024x512.Idx → EReal) (h : S1024x512.Slices ![512, 0] S512x512) :
    extractStridedSlice S512x512 ![512, 0] W h = lowerHalf W := by
  funext y
  obtain ⟨k, j, rfl⟩ : ∃ (k j : Fin 512), y = ix2 k j := ⟨y 0, y 1, eq_ix2 y⟩
  exact extractStridedSlice_apply ![512, 0] W h (ix2 k j) (ix2 (lower k) j)
    (fun a => by match a with | ⟨0, _⟩ => rfl | ⟨1, _⟩ => exact (Nat.zero_add _).symm)

theorem arrX_eq (c : Dev nD) : arrX m c = m ((c : Thread nD τ).loc main_arg0) := V_main_arg0 m c
theorem arrH_eq (c : Dev nD) : arrH m c = m ((c : Thread nD τ).loc main_arg1) := V_main_arg1 m c

theorem arrZu_eq (c : Dev nD) : arrZu m c = upperHalf (m ((c : Thread nD τ).loc main_arg2)) := by
  have e : (V m c main_v0 : S512x512.Idx → EReal)
      = extractStridedSlice S512x512 ![0, 0] (m ((c : Thread nD τ).loc main_arg2)) slices_S1024x512_S512x512_0_0 := by
    dsimp only [Gen.V, Gen.hostOps0]; after_results
  exact e.trans (slice_upper _ _)
theorem arrZl_eq (c : Dev nD) : arrZl m c = lowerHalf (m ((c : Thread nD τ).loc main_arg2)) := by
  have e : (V m c main_v1 : S512x512.Idx → EReal)
      = extractStridedSlice S512x512 ![512, 0] (m ((c : Thread nD τ).loc main_arg2)) slices_S1024x512_S512x512_512_0 := by
    dsimp only [Gen.V, Gen.hostOps0]; after_results
  exact e.trans (slice_lower _ _)
theorem arrRu_eq (c : Dev nD) : arrRu m c = upperHalf (m ((c : Thread nD τ).loc main_arg3)) := by
  have e : (V m c main_v2 : S512x512.Idx → EReal)
      = extractStridedSlice S512x512 ![0, 0] (m ((c : Thread nD τ).loc main_arg3)) slices_S1024x512_S512x512_0_0 := by
    dsimp only [Gen.V, Gen.hostOps0]; after_results
  exact e.trans (slice_upper _ _)
theorem arrRl_eq (c : Dev nD) : arrRl m c = lowerHalf (m ((c : Thread nD τ).loc main_arg3)) := by
  have e : (V m c main_v3 : S512x512.Idx → EReal)
      = extractStridedSlice S512x512 ![512, 0] (m ((c : Thread nD τ).loc main_arg3)) slices_S1024x512_S512x512_512_0 := by
    dsimp only [Gen.V, Gen.hostOps0]; after_results
  exact e.trans (slice_lower _ _)
theorem arrCu_eq (c : Dev nD) : arrCu m c = upperHalf (m ((c : Thread nD τ).loc main_arg4)) := by
  have e : (V m c main_v4 : S512x512.Idx → EReal)
      = extractStridedSlice S512x512 ![0, 0] (m ((c : Thread nD τ).loc main_arg4)) slices_S1024x512_S512x512_0_0 := by
    dsimp only [Gen.V, Gen.hostOps0]; after_results
  exact e.trans (slice_upper _ _)
theorem arrCl_eq (c : Dev nD) : arrCl m c = lowerHalf (m ((c : Thread nD τ).loc main_arg4)) := by
  have e : (V m c main_v5 : S512x512.Idx → EReal)
      = extractStridedSlice S512x512 ![512, 0] (m ((c : Thread nD τ).loc main_arg4)) slices_S1024x512_S512x512_512_0 := by
    dsimp only [Gen.V, Gen.hostOps0]; after_results
  exact e.trans (slice_lower _ _)

/-- THE RESULT ARRAY after the run is the cell of the five arguments. -/
theorem result_eq (c : Dev nD) :
    (dats m 0 c).arrAt 8 cfg0.N
      = cell (m ((c : Thread nD τ).loc main_arg0)) (m ((c : Thread nD τ).loc main_arg1)) (m ((c : Thread nD τ).loc main_arg2)) (m ((c : Thread nD τ).loc main_arg3)) (m ((c : Thread nD τ).loc main_arg4)) := by
  rw [result_of_halves, arrX_eq, arrH_eq, arrZu_eq, arrZl_eq, arrRu_eq, arrRl_eq, arrCu_eq, arrCl_eq]
  rfl

/-! ## The run -/

/-- Every weakly fair execution of the kernel's program ends with the result array at the cell of the arguments and
    the arguments unchanged. -/
theorem run : θ_run defs (onTc (τ := τ) (main (F := Ideal))) ⟨m, fun _ => 0, ρ⟩ fun r => ∀ c : Dev nD,
      r.2.mem ((c : Thread nD τ).loc main_v6)
        = cell (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_eq m c), (h c).2⟩)
    (Cert.KernelIdeal.Value.run_blocks m ρ)

end Cert.Gru.Kernel

end
-- ==== Proof.lean ====
/-
  The certificate of a fused gated-recurrent-cell kernel against its jnp reference, over the extended reals.

  Both programs compute, for input rows x, state rows h and three weights of 1024 rows,
      z = logistic(x Wz[:512] + h Wz[512:]),   r = logistic(x Wr[:512] + h Wr[512:]),
      c = tanh(x Wh[:512] + (r * h) Wh[512:]),  new state = z * h + (1 - z) * c.
  The reference joins x and h into rows of length 1024 and multiplies by each whole weight; the kernel slices each
  weight into its two halves on the host and adds two half products per gate, on 32 blocks of 512 rows. The two
  agree because a sum over 1024 terms is the sum of its first and last 512 terms, which holds for extended reals
  without any finiteness (addition is commutative and associative), and because the quotient 1 / (1 + e^(-t))
  the reference writes is the logistic function the kernel applies. A change of float format is the identity over the
  extended reals. The precondition is not used by the value claim.

  Proof/GruSpec.lean states the cell; Proof/RefCell.lean shows the reference's result is the cell;
  Proof/KernelBlock.lean reads the kernel body's stored block entry by entry; Proof/KernelArray.lean carries the
  blocks to the whole result array and reads the host's slices. The three frames are the generated ones (the
  reference's is its generated run with the result dropped), and the idealization rewrote nothing.
-/
import proofs.«140786_j70523363000807_1_alg».proof.Defs
import proofs.«140786_j70523363000807_1_alg».proof.Proof.Gen.Kernel
import proofs.«140786_j70523363000807_1_alg».proof.Proof.Gen.Kernel.Skeleton
import proofs.«140786_j70523363000807_1_alg».proof.Proof.Gen.Kernel.Launch
import proofs.«140786_j70523363000807_1_alg».proof.Proof.Gen.Kernel.Points
import proofs.«140786_j70523363000807_1_alg».proof.Proof.Gen.Kernel.Frame
import proofs.«140786_j70523363000807_1_alg».proof.Proof.Gen.KernelIdeal
import proofs.«140786_j70523363000807_1_alg».proof.Proof.Gen.KernelIdeal.Skeleton
import proofs.«140786_j70523363000807_1_alg».proof.Proof.Gen.KernelIdeal.Launch
import proofs.«140786_j70523363000807_1_alg».proof.Proof.Gen.KernelIdeal.Points
import proofs.«140786_j70523363000807_1_alg».proof.Proof.Gen.KernelIdeal.Frame
import proofs.«140786_j70523363000807_1_alg».proof.Proof.Gen.ReferenceIdeal
import proofs.«140786_j70523363000807_1_alg».proof.Proof.Gen.Pre_finite_inputs
import proofs.«140786_j70523363000807_1_alg».proof.Proof.Gen.KernelIdeal.Value
import proofs.«140786_j70523363000807_1_alg».proof.Proof.Gen.ReferenceIdeal.Run
import proofs.«140786_j70523363000807_1_alg».proof.Proof.Gen.ReferenceIdeal.Read
import proofs.«140786_j70523363000807_1_alg».proof.Proof.RefCell
import proofs.«140786_j70523363000807_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the cell of those arguments in their result:
    the kernel by its blocks (Proof/KernelArray.lean), the reference by its run read stage by stage (Proof/RefCell.lean). -/
theorem algebraic : Cert.algebraic_KernelIdeal_ReferenceIdeal := by
  intro m ρ m' ρ' _ hagree
  refine ⟨_, Cert.Gru.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4]
  exact (Cert.ReferenceIdeal.Read.val_main_v23_eq _ _ _ _ _).trans (Cert.Gru.Ref.result_eq _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
